-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x64 : Shape := ⟨2, ![512, 64]⟩
abbrev S64 : Shape := ⟨1, ![64]⟩
abbrev S64x7 : Shape := ⟨2, ![64, 7]⟩
abbrev S7 : Shape := ⟨1, ![7]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S64x7 1) : IVec S_ 1 :=
  let main_c_5 : IVec S_ 1 := constantI S_ 1 1#1
  let main_v17 : IVec S_ 1 := (fun x v => Host.reduce IntOp.andi x v reducesTo_S64x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S50000x512 .f32) (main_arg1 : IVec S2x1600000 32) (main_arg2 : FVec F S512x64 .f32) (main_arg3 : FVec F S64 .f32) (main_arg4 : FVec F S64x7 .f32) (main_arg5 : FVec F S7 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x7 .f32 := Host.absf main_arg4
  let main_cst_4 : FVec F S_ .f32 := constant S_ .f32 0x7F800000#32
  let main_v15 : FVec F S64x7 .f32 := broadcastInDim S64x7 ![] bcast_S_S64x7 main_cst_4
  let main_v16 : IVec S64x7 1 := cmpf .olt main_v14 main_v15
  fn_part1 (F := F) main_arg5 main_v13 main_v16
-- ==== Kernel.lean ====
abbrev S50000x512 : Shape := ⟨2, ![50000, 512]⟩
abbrev S2x1600000 : Shape := ⟨2, ![2, 1600000]⟩
abbrev S512x64 : Shape := ⟨2, ![512, 64]⟩
abbrev S64 : Shape := ⟨1, ![64]⟩
abbrev S64x7 : Shape := ⟨2, ![64, 7]⟩
abbrev S7 : Shape := ⟨1, ![7]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S2000x512 : Shape := ⟨2, ![2000, 512]⟩
abbrev S2000x64 : Shape := ⟨2, ![2000, 64]⟩
abbrev S1650000x64 : Shape := ⟨2, ![1650000, 64]⟩
abbrev S1x64 : Shape := ⟨2, ![1, 64]⟩
abbrev S50000x7 : Shape := ⟨2, ![50000, 7]⟩
abbrev S2000x7 : Shape := ⟨2, ![2000, 7]⟩
abbrev S1650000x7 : Shape := ⟨2, ![1650000, 7]⟩
abbrev S1x7 : Shape := ⟨2, ![1, 7]⟩

abbrev nBuf : Space → Nat
  | .hbm => 88
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x7, .f32⟩
  | .hbm, ⟨5, _⟩ => ⟨S7, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S50000x64, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x64, .f32⟩
  | .hbm, ⟨60, _⟩ => ⟨S1650000x1, .f32⟩
  | .hbm, ⟨61, _⟩ => ⟨S1650000x64, .f32⟩
  | .hbm, ⟨62, _⟩ => ⟨S1650000x64, .f32⟩
  | .hbm, ⟨63, _⟩ => ⟨S_, .f32⟩
  | .hbm, ⟨64, _⟩ => ⟨S50000x64, .f32⟩
  | .hbm, ⟨65, _⟩ => ⟨S1650000x1, .i32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x7, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x7, .f32⟩
  | .hbm, ⟨79, _⟩ => ⟨S1650000x1, .f32⟩
  | .hbm, ⟨80, _⟩ => ⟨S1650000x7, .f32⟩
  | .hbm, ⟨81, _⟩ => ⟨S1650000x7, .f32⟩
  | .hbm, ⟨82, _⟩ => ⟨S_, .f32⟩
  | .hbm, ⟨83, _⟩ => ⟨S50000x7, .f32⟩
  | .hbm, ⟨84, _⟩ => ⟨S1650000x1, .i32⟩
  | .hbm, ⟨85, _⟩ => ⟨S50000x7, .f32⟩
  | .hbm, ⟨86, _⟩ => ⟨S1x7, .f32⟩
  | .hbm, ⟨87, _⟩ => ⟨S50000x7, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x7, .f32⟩
  | .local _ .vmem, ⟨13, _⟩ => ⟨S2000x7, .f32⟩
  | .local _ .vmem, ⟨14, _⟩ => ⟨S2000x7, .f32⟩
  | .local _ .vmem, ⟨15, _⟩ => ⟨S2000x7, .f32⟩
  | .local _ .vmem, ⟨16, _⟩ => ⟨S2000x7, .f32⟩
  | .local _ .vmem, ⟨17, _⟩ => ⟨S1x7, .f32⟩
  | .local _ .vmem, ⟨18, _⟩ => ⟨S2000x7, .f32⟩
  | .local _ .vmem, ⟨19, _⟩ => ⟨S2000x7, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x7_S64x7_0_0 : ∀ a, (![0, 0] : Fin 2 → Nat) a + S64x7.size a ≤ S64x7.size a
  h_S64x7 : 0 < S64x7.numel
  inb_S2000x7_S2000x7_0_0 : ∀ a, (![0, 0] : Fin 2 → Nat) a + S2000x7.size a ≤ S2000x7.size a
  h_S2000x7 : 0 < S2000x7.numel
  bcast_S1650000x1_S1650000x7_0_1 : S1650000x1.BroadcastsInDim S1650000x7 (![0, 1] : Fin 2 → Fin S1650000x7.rank)
  bcast_S_S50000x7 : S_.BroadcastsInDim S50000x7 (![] : Fin 0 → Fin S50000x7.rank)
  shapeCasts_S7_S1x7 : S7.ShapeCasts S1x7
  shapeCasts_S2000x7_S2000x7 : S2000x7.ShapeCasts S2000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x512_S512x64_S2000x64_1_0_0_1_n_n_wf : DotDims.WF S2000x512 S512x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S2000x64_S64x7_S2000x7_1_0_0_1_n_n_wf : DotDims.WF S2000x64 S64x7 S2000x7 [1] [0] [0] [1] [] []
  gather_S50000x7_S1650000x1_S1650000x7_1_0_n_n_0_1_17_wf : GatherDims.WF S50000x7 S1650000x1 S1650000x7 [1] [0] [] [0] [] 1 ![1, 7]
  scatter_S50000x7_S1650000x1_S1650000x7_1_0_0_1_wf : ScatterDims.WF S50000x7 S1650000x1 S1650000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x7.size a ≤ S64x7.size a
  hwx2_1 : ∀ i : grid2.Coords, EltTy.bits .f32 = 32 ∨ (Rect.block (s := S64x7) S64x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x7.size a ≤ S50000x7.size a
  hwx2_2 : ∀ i : grid2.Coords, EltTy.bits .f32 = 32 ∨ (Rect.block (s := S50000x7) S2000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x7.size a ≤ S50000x7.size a
  hwx3_0 : ∀ i : grid3.Coords, EltTy.bits .f32 = 32 ∨ (Rect.block (s := S50000x7) S2000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x7.size a ≤ S50000x7.size a
  hwx3_2 : ∀ i : grid3.Coords, EltTy.bits .f32 = 32 ∨ (Rect.block (s := S50000x7) S2000x7.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S2000x64_S64x7_S2000x7_1_0_0_1_n_n : DotDims S2000x64 S64x7 S2000x7 where
  lhsContracting := [1]
  rhsContracting := [0]
  lhsNonContracting := [0]
  rhsNonContracting := [1]
  lhsBatch := []
  rhsBatch := []
  wf := dot_S2000x64_S64x7_S2000x7_1_0_0_1_n_n_wf
def gather_S50000x7_S1650000x1_S1650000x7_1_0_n_n_0_1_17 : GatherDims S50000x7 S1650000x1 S1650000x7 where
  offsetDims := [1]
  collapsedSliceDims := [0]
  operandBatchingDims := []
  startIndicesBatchingDims := []
  startIndexMap := [0]
  indexVectorDim := 1
  sliceSizes := ![1, 7]
  wf := gather_S50000x7_S1650000x1_S1650000x7_1_0_n_n_0_1_17_wf
def scatter_S50000x7_S1650000x1_S1650000x7_1_0_0_1 : ScatterDims S50000x7 S1650000x1 S1650000x7 where
  updateWindowDims := [1]
  insertedWindowDims := [0]
  scatterDimsToOperandDims := [0]
  indexVectorDim := 1
  wf := scatter_S50000x7_S1650000x1_S1650000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S2000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S2000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x64 : Shape := ⟨2, ![512, 64]⟩
abbrev S64 : Shape := ⟨1, ![64]⟩
abbrev S64x7 : Shape := ⟨2, ![64, 7]⟩
abbrev S7 : Shape := ⟨1, ![7]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S50000x7 : Shape := ⟨2, ![50000, 7]⟩
abbrev S1650000x7 : Shape := ⟨2, ![1650000, 7]⟩
abbrev S1x7 : Shape := ⟨2, ![1, 7]⟩

abbrev nBuf : Space → Nat
  | .hbm => 93
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x7, .f32⟩
  | .hbm, ⟨5, _⟩ => ⟨S7, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S50000x64, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x64, .f32⟩
  | .hbm, ⟨60, _⟩ => ⟨S1650000x1, .f32⟩
  | .hbm, ⟨61, _⟩ => ⟨S1650000x64, .f32⟩
  | .hbm, ⟨62, _⟩ => ⟨S1650000x64, .f32⟩
  | .hbm, ⟨63, _⟩ => ⟨S_, .f32⟩
  | .hbm, ⟨64, _⟩ => ⟨S50000x64, .f32⟩
  | .hbm, ⟨65, _⟩ => ⟨S1650000x1, .i32⟩
  | .hbm, ⟨66, _⟩ => ⟨S50000x64, .f32⟩
  | .hbm, ⟨67, _⟩ => ⟨S1x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S50000x64, .f32⟩
  | .hbm, ⟨72, _⟩ => ⟨S50000x64, .f32⟩
  | .hbm, ⟨73, _⟩ => ⟨S50000x7, .f32⟩
  | .hbm, ⟨74, _⟩ => ⟨S_, .i32⟩
  | .hbm, ⟨75, _⟩ => ⟨S1650000, .i32⟩
  | .hbm, ⟨76, _⟩ => ⟨S1650000, .i1⟩
  | .hbm, ⟨77, _⟩ => ⟨S_, .i32⟩
  | .hbm, ⟨78, _⟩ => ⟨S1650000, .i32⟩
  | .hbm, ⟨79, _⟩ => ⟨S1650000, .i32⟩
  | .hbm, ⟨80, _⟩ => ⟨S1650000, .i32⟩
  | .hbm, ⟨81, _⟩ => ⟨S1650000x1, .i32⟩
  | .hbm, ⟨82, _⟩ => ⟨S1650000x7, .f32⟩
  | .hbm, ⟨83, _⟩ => ⟨S1650000x1, .f32⟩
  | .hbm, ⟨84, _⟩ => ⟨S1650000x7, .f32⟩
  | .hbm, ⟨85, _⟩ => ⟨S1650000x7, .f32⟩
  | .hbm, ⟨86, _⟩ => ⟨S_, .f32⟩
  | .hbm, ⟨87, _⟩ => ⟨S50000x7, .f32⟩
  | .hbm, ⟨88, _⟩ => ⟨S1650000x1, .i32⟩
  | .hbm, ⟨89, _⟩ => ⟨S50000x7, .f32⟩
  | .hbm, ⟨90, _⟩ => ⟨S1x7, .f32⟩
  | .hbm, ⟨91, _⟩ => ⟨S50000x7, .f32⟩
  | .hbm, ⟨92, _⟩ => ⟨S50000x7, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x7_0_1 : S1650000x1.BroadcastsInDim S1650000x7 (![0, 1] : Fin 2 → Fin S1650000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x512_S512x64_S50000x64_1_0_0_1_n_n_wf : DotDims.WF S50000x512 S512x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x7_S50000x7_1_0_0_1_n_n_wf : DotDims.WF S50000x64 S64x7 S50000x7 [1] [0] [0] [1] [] []
  gather_S50000x7_S1650000x1_S1650000x7_1_0_n_n_0_1_17_wf : GatherDims.WF S50000x7 S1650000x1 S1650000x7 [1] [0] [] [0] [] 1 ![1, 7]
  scatter_S50000x7_S1650000x1_S1650000x7_1_0_0_1_wf : ScatterDims.WF S50000x7 S1650000x1 S1650000x7 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x7_S50000x7_1_0_0_1_n_n : DotDims S50000x64 S64x7 S50000x7 where
  lhsContracting := [1]
  rhsContracting := [0]
  lhsNonContracting := [0]
  rhsNonContracting := [1]
  lhsBatch := []
  rhsBatch := []
  wf := dot_S50000x64_S64x7_S50000x7_1_0_0_1_n_n_wf
def gather_S50000x7_S1650000x1_S1650000x7_1_0_n_n_0_1_17 : GatherDims S50000x7 S1650000x1 S1650000x7 where
  offsetDims := [1]
  collapsedSliceDims := [0]
  operandBatchingDims := []
  startIndicesBatchingDims := []
  startIndexMap := [0]
  indexVectorDim := 1
  sliceSizes := ![1, 7]
  wf := gather_S50000x7_S1650000x1_S1650000x7_1_0_n_n_0_1_17_wf
def scatter_S50000x7_S1650000x1_S1650000x7_1_0_0_1 : ScatterDims S50000x7 S1650000x1 S1650000x7 where
  updateWindowDims := [1]
  insertedWindowDims := [0]
  scatterDimsToOperandDims := [0]
  indexVectorDim := 1
  wf := scatter_S50000x7_S1650000x1_S1650000x7_1_0_0_1_wf

class Facts : Prop extends Facts₀ where

variable [Facts]
-- ==== Proof.Spec.lean ====
/-
  The four dense pieces of the two-layer graph convolution, each as ONE function of whole arrays, written with the
  reference's own host operations so that the reference's stages are these functions by unfolding:

    lin1 X W   = X · W                                   (50000×512 by 512×64)
    act1 A b   = max (A + b broadcast over the rows) 0   (bias and relu, 50000×64; b is a 1×64 row)
    lin2 X W   = X · W                                   (50000×64 by 64×7)
    act2 A b   = A + b broadcast over the rows           (bias, 50000×7; b is a 1×7 row)

  The kernel computes each of them block by block (25 blocks of 2000 rows); between them both programs apply the same
  gather, scale and scatter-add over the edges.
-/
import proofs.«133167_j81638738363153_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- The contents of a float array of shape `s`. -/
abbrev Arr (F : FTy → Type) [FloatOps F] (s : Shape) : Type := (⟨s, .f32⟩ : BufTy).Contents (Elt F)

/-- First linear map: node features times the first weight matrix. -/
def lin1 (X : Arr F S50000x512) (W : Arr F S512x64) : Arr F S50000x64 :=
  Host.dotGeneral dot_S50000x512_S512x64_S50000x64_1_0_0_1_n_n none X W

/-- The all-zero 50000×64 array the relu compares with. -/
def zero64 : Arr F S50000x64 :=
  broadcastInDim S50000x64 ![] bcast_S_S50000x64 (constant S_ .f32 0x00000000#32)

/-- First epilogue: add the bias row to every row, then clamp below at zero. -/
def act1 (A : Arr F S50000x64) (b : Arr F S1x64) : Arr F S50000x64 :=
  maximumf (addf A (broadcastInDim S50000x64 ![0, 1] bcast_S1x64_S50000x64_0_1 b)) (zero64 (F := F))

/-- Second linear map: hidden features times the second weight matrix. -/
def lin2 (X : Arr F S50000x64) (W : Arr F S64x7) : Arr F S50000x7 :=
  Host.dotGeneral dot_S50000x64_S64x7_S50000x7_1_0_0_1_n_n none X W

/-- Second epilogue: add the bias row to every row. -/
def act2 (A : Arr F S50000x7) (b : Arr F S1x7) : Arr F S50000x7 :=
  addf A (broadcastInDim S50000x7 ![0, 1] bcast_S1x7_S50000x7_0_1 b)

end Cert.Gcn

end
-- ==== Proof.Glue.lean ====
/-
  What both programs do between the dense pieces, as one function of the incoming features per layer: for every edge
  (and every self loop) gather the source node's row, scale it by the edge's normalisation weight
  dinv[src] · dinv[dst], and add it into the destination node's row. The edge list, the degrees and the weights depend on
  the edge-index input only; they are taken here as the reference's own stages (`val_main_v39`: the source indices as a
  column, `val_main_v42`: the weights broadcast over the feature axis, `val_main_v45`: the destination indices as a
  column, `val_main_v44`: the zero array the sums start from; the same for the 7-column layer).

  With them the reference's result is the four dense pieces of `Cert.Gcn` threaded through the two chains
  (`reference_eq`, by unfolding): neither proof ever opens a gather or a scatter-add.
-/
import proofs.«133167_j81638738363153_1_alg».proof.Proof.RefRead
import proofs.«133167_j81638738363153_1_alg».proof.Proof.Spec

noncomputable section

namespace Cert.Gcn

open Idealize.ShloMosaic Cert.ReferenceIdeal Cert.ReferenceIdeal.Gen Cert.ReferenceIdeal.ReadP

variable {F : FTy → Type} [FloatOps F]

/-- The contents of the edge-index input. -/
abbrev Edges (F : FTy → Type) [FloatOps F] : Type := (⟨S2x1600000, .i32⟩ : BufTy).Contents (Elt F)

/-- Layer 1: gather rows of `h` at the edges' sources, scale by the edge weights, add into the destinations' rows. -/
def spread64 (e : Edges F) (h : Arr F S50000x64) : Arr F S50000x64 :=
  Host.scatterAdd scatter_S50000x64_S1650000x1_S1650000x64_1_0_0_1 (val_main_v44 (F := F)) (val_main_v45 (F := F) e)
    (mulf (Host.gather gather_S50000x64_S1650000x1_S1650000x64_1_0_n_n_0_1_164 h (val_main_v39 (F := F) e)) (val_main_v42 (F := F) e))

/-- Layer 2: the same over 7 feature columns. -/
def spread7 (e : Edges F) (h : Arr F S50000x7) : Arr F S50000x7 :=
  Host.scatterAdd scatter_S50000x7_S1650000x1_S1650000x7_1_0_0_1 (val_main_v62 (F := F)) (val_main_v63 (F := F) e)
    (mulf (Host.gather gather_S50000x7_S1650000x1_S1650000x7_1_0_n_n_0_1_17 h (val_main_v57 (F := F) e)) (val_main_v60 (F := F) e))

/-- The two layers as one function of the six inputs; the bias rows enter as 1×64 and 1×7 arrays. -/
def network (x : Arr F S50000x512) (e : Edges F) (w1 : Arr F S512x64) (b1 : Arr F S1x64) (w2 : Arr F S64x7) (b2 : Arr F S1x7) :
    Arr F S50000x7 :=
  act2 (spread7 e (lin2 (act1 (spread64 e (lin1 x w1)) b1) w2)) b2

/-- The reference computes `network` of its inputs, its bias vectors laid out as rows: stage by stage its operations
    are the ones `network` is written with. -/
theorem reference_eq (x : Arr F S50000x512) (e : Edges F) (w1 : Arr F S512x64) (b1 : (⟨S64, .f32⟩ : BufTy).Contents (Elt F))
    (w2 : Arr F S64x7) (b2 : (⟨S7, .f32⟩ : BufTy).Contents (Elt F)) :
    val_main_v67 (F := F) x e w1 b1 w2 b2 = network x e w1 (val_main_v47 (F := F) b1) w2 (val_main_v65 (F := F) b2) := rfl

end Cert.Gcn

end
-- ==== Proof.Lin1.lean ====
/-
  Region 0 (the first linear map), read as one function of whole arrays.
  Point t of the 25-point grid reads rows 2000 t … 2000 t + 1999 of the node features (all 512 columns) and the whole
  512×64 weight matrix, and writes back those rows of their product: entry (r, q) is the sum over k of X (r, k) · W (k, q)
  (the conversion to bf16 is the identity on extended reals, and the accumulator starts at zero). The 25 blocks tile the
  50000 rows, so after the region the output array is the whole product.
-/
import proofs.«133167_j81638738363153_1_alg».proof.Proof.Gen.KernelIdeal.Frame
import proofs.«133167_j81638738363153_1_alg».proof.Proof.Spec
import proofs.«133167_j81638738363153_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Lin1

open Idealize.ShloMosaic Idealize.ShloMosaic.TcCoe Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-! ## The block product at an index -/

/-- In the block product the left operand's row is the output's row. -/
theorem lhs_row (i : S2000x64.Idx) (q : dot_S2000x512_S512x64_S2000x64_1_0_0_1_n_n.contr.Idx) :
    (dot_S2000x512_S512x64_S2000x64_1_0_0_1_n_n.lhsIdx i q 0).val = (i 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl

/-- In the block product the left operand's column is the summation index. -/
theorem lhs_col (i : S2000x64.Idx) (q : dot_S2000x512_S512x64_S2000x64_1_0_0_1_n_n.contr.Idx) :
    (dot_S2000x512_S512x64_S2000x64_1_0_0_1_n_n.lhsIdx i q 1).val = (q ⟨0, by decide⟩).val :=
  dot_S2000x512_S512x64_S2000x64_1_0_0_1_n_n.lhsIdx_val_of_single rfl i q

/-- In the block product the right operand's row is the summation index. -/
theorem rhs_row (i : S2000x64.Idx) (q : dot_S2000x512_S512x64_S2000x64_1_0_0_1_n_n.contr.Idx) :
    (dot_S2000x512_S512x64_S2000x64_1_0_0_1_n_n.rhsIdx i q 0).val = (q ⟨0, by decide⟩).val :=
  dot_S2000x512_S512x64_S2000x64_1_0_0_1_n_n.rhsIdx_val_of_single rfl i q

/-- In the block product the right operand's column is the output's column. -/
theorem rhs_col (i : S2000x64.Idx) (q : dot_S2000x512_S512x64_S2000x64_1_0_0_1_n_n.contr.Idx) :
    (dot_S2000x512_S512x64_S2000x64_1_0_0_1_n_n.rhsIdx i q 1).val = (i 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- What the body stores at row p, column q of its block: the sum over k of the left block at (p, k) times the
    right block at (k, q). The conversions to bf16 change nothing and the accumulator is zero. -/
theorem blockProduct_apply (x0 : Vec Ideal S2000x512 .f32) (x1 : Vec Ideal S512x64 .f32) (p : Fin 2000) (q : Fin 64) :
    k0_pay1 (F := Ideal) x0 x1 (ValueIdx.ix2 p q) = ∑ k : Fin 512, x0 (ValueIdx.ix2 p k) * x1 (ValueIdx.ix2 k q) := by
  unfold k0_pay1
  show FloatOps.matmul (F := Ideal) dot_S2000x512_S512x64_S2000x64_1_0_0_1_n_n none (truncf .bf16 x0 bitsLt_bf16_f32) (truncf .bf16 x1 bitsLt_bf16_f32) (constant S2000x64 .f32 0x00000000#32) (ValueIdx.ix2 p q) = _
  rw [Ideal.matmul_constant_zero_apply, ← Equiv.sum_comp (ValueIdx.contrEquiv1 dot_S2000x512_S512x64_S2000x64_1_0_0_1_n_n 512 rfl rfl).symm]
  refine Finset.sum_congr rfl fun k _ => ?_
  have hk := ValueIdx.contrEquiv1_symm_val dot_S2000x512_S512x64_S2000x64_1_0_0_1_n_n 512 rfl rfl k
  have el : dot_S2000x512_S512x64_S2000x64_1_0_0_1_n_n.lhsIdx (ValueIdx.ix2 p q) ((ValueIdx.contrEquiv1 dot_S2000x512_S512x64_S2000x64_1_0_0_1_n_n 512 rfl rfl).symm k) = ValueIdx.ix2 p k := funext fun a => Fin.ext (by
    match a with
    | ⟨0, _⟩ => exact lhs_row _ _
    | ⟨1, _⟩ => exact (lhs_col _ _).trans hk)
  have er : dot_S2000x512_S512x64_S2000x64_1_0_0_1_n_n.rhsIdx (ValueIdx.ix2 p q) ((ValueIdx.contrEquiv1 dot_S2000x512_S512x64_S2000x64_1_0_0_1_n_n 512 rfl rfl).symm k) = ValueIdx.ix2 k q := funext fun a => Fin.ext (by
    match a with
    | ⟨0, _⟩ => exact (rhs_row _ _).trans hk
    | ⟨1, _⟩ => exact rhs_col _ _)
  rw [el, er]
  rfl

/-! ## From the 25 blocks to the array -/

/-- The body reads and writes its staging buffers whole: the offset of each access is zero on both axes. -/
theorem zero_offset : (![0, 0] : Fin 2 → Nat) = fun _ => 0 := funext fun a => by fin_cases a <;> rfl

/-- The block indices over the 25 points: the feature block and the output block of point t are both block t of the
    rows and block 0 of the columns; the weight matrix is one block, read at every point. -/
theorem block_indices : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- An entry of the whole product: the sum over k of X (row, k) · W (k, column). -/
theorem lin1_apply (X : Gcn.Arr Ideal Cert.ReferenceIdeal.S50000x512) (W : Gcn.Arr Ideal Cert.ReferenceIdeal.S512x64)
    (i : Cert.ReferenceIdeal.S50000x64.Idx) :
    Gcn.lin1 X W i = ∑ k : Fin 512, X (Cert.ReferenceIdeal.ReadP.lidx_main_v33 i k) * W (Cert.ReferenceIdeal.ReadP.ridx_main_v33 i k) :=
  Cert.ReferenceIdeal.ReadP.val_main_v33_apply X W i

/-- What point t writes back is block t of the whole product: rows 2000 t … 2000 t + 1999, all 64 columns. -/
theorem flushed_eq (c : Dev nD) (t : Fin cfg0.N) :
    (dat0 V c).flushed 2 t = ((cfg0.win 2).blk t).view.read (Elt Ideal) (Gcn.lin1 (V c main_arg0) (V c main_arg2)) := by
  show (cfg0.win 2).cut (grid0.coords t) ((dat0 V c).after 2 t) = _
  rw [after0_2]
  unfold out0_2
  rw [View.canon_unit_zero zero_offset]
  simp only [View.ld_unit_zero (S := S2000x512) zero_offset, View.ld_unit_zero (S := S512x64) zero_offset]
  obtain ⟨e0, e1, e2, e3, e4, e5⟩ := block_indices t
  refine funext fun (j : S2000x64.Idx) => ?_
  obtain ⟨p, q, rfl⟩ : ∃ (p : Fin 2000) (q : Fin 64), j = ValueIdx.ix2 p q := ⟨j 0, j 1, ValueIdx.eq_ix2 j⟩
  show k0_pay1 (F := Ideal) (iblk0 V c 0 t) (iblk0 V c 1 t) (ValueIdx.ix2 p q)
    = Gcn.lin1 (V c main_arg0) (V c main_arg2) (((cfg0.win 2).blk t).view.emb (ValueIdx.ix2 p q))
  refine (blockProduct_apply _ _ p q).trans ?_
  rw [lin1_apply]
  refine Finset.sum_congr rfl fun k _ => ?_
  have hX : ((cfg0.win 0).blk t).view.emb (ValueIdx.ix2 p k)
      = Cert.ReferenceIdeal.ReadP.lidx_main_v33 (((cfg0.win 2).blk t).view.emb (ValueIdx.ix2 p q)) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have hW : ((cfg0.win 1).blk t).view.emb (ValueIdx.ix2 k q)
      = Cert.ReferenceIdeal.ReadP.ridx_main_v33 (((cfg0.win 2).blk t).view.emb (ValueIdx.ix2 p q)) k := by
    funext a; apply Fin.ext
    match a with
    | ⟨0, _⟩ => show win0_1.index t (0 : Fin 2) * 512 + 1 * k.val = k.val; omega
    | ⟨1, _⟩ => show win0_1.index t (1 : Fin 2) * 64 + 1 * q.val = win0_2.index t (1 : Fin 2) * 64 + 1 * q.val; omega
  rw [← hX, ← hW]
  rfl

/-- An index of the output array lies in point t's block exactly when each coordinate lies in the block's range on its
    axis: rows from 2000 · (block row) up to the next 2000, columns from 64 · (block column) up to the next 64. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v33).slice (win0_2.rect t)).set ↔ _
  rw [View.set_slice_whole, Rect.mem_set_unit]
  exact Iff.rfl

/-- The 25 blocks tile the 50000 rows: row r lies in the block of point r / 2000, and every point writes its block back. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : (i 0).val / 2000 < grid0.N := by rw [N_0]; omega
  obtain ⟨t, ht⟩ : ∃ t : Fin cfg0.N, t.val = (i 0).val / 2000 := ⟨⟨(i 0).val / 2000, hN⟩, rfl⟩
  obtain ⟨e0, e1, e2, e3, e4, e5⟩ := block_indices t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the region its output array holds the matrix product of the two input arrays as the region found them. -/
theorem final (c : Dev nD) : (dat0 V c).arrAt 2 cfg0.N = Gcn.lin1 (V c main_arg0) (V c main_arg2) :=
  (dat0 V c).arrAt_eq_of_cover 2 (Gcn.lin1 (V c main_arg0) (V c main_arg2)) (fun t _ => flushed_eq V c t) cover

end Cert.KernelIdeal.Lin1

end
-- ==== Proof.Act1.lean ====
/-
  Region 1 (bias and relu), read as one function of whole arrays.
  Point t of the 25-point grid reads rows 2000 t … 2000 t + 1999 of the aggregated features (all 64 columns) and the whole
  1×64 bias row, and writes back, for those rows, the larger of row + bias and 0. The output's
  25 blocks tile the 50000 rows, so after the region the output array holds `Gcn.act1` of the two input arrays as the
  region found them.
-/
import proofs.«133167_j81638738363153_1_alg».proof.Proof.Gen.KernelIdeal.Frame
import proofs.«133167_j81638738363153_1_alg».proof.Proof.Spec
import Idealize.ShloMosaic.Lib.Pipeline.Value
import Idealize.ShloMosaic.Lib.ValueIdx

set_option maxRecDepth 16384

noncomputable section

namespace Cert.KernelIdeal.Act1

open Idealize.ShloMosaic Idealize.ShloMosaic.TcCoe Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-- Every access of the body starts at the corner of its buffer. -/
theorem corner : (![0, 0] : Fin 2 → Nat) = fun _ => 0 := funext fun a => by fin_cases a <;> rfl

/-- The index of column `q` in a one-row array. -/
abbrev rowAt (q : Fin 64) : S1x64.Idx := ValueIdx.ix2 (0 : Fin 1) q

/-- The body's arithmetic at an entry of the block: the feature entry plus the bias of its column, clamped below at zero. -/
theorem body_apply (x0 : Vec Ideal S2000x64 .f32) (x1 : Vec Ideal S1x64 .f32) (j : S2000x64.Idx) :
    k1_pay1 x0 x1 j = max (x0 j + x1 (rowAt ⟨(j 1).val, (j 1).isLt⟩)) (Ideal.ofBits .f32 0x00000000#32) := by
  unfold k1_pay1
  simp only [shapeCast_self]
  rw [ValueIdx.maximumf_apply, ValueIdx.addf_apply, ValueIdx.broadcast_apply]
  rw [broadcastTo_apply x1 broadcasts_S1x64_S2000x64 j (rowAt ⟨(j 1).val, (j 1).isLt⟩) (fun a => by
    match a with
    | ⟨0, _⟩ => rfl
    | ⟨1, _⟩ => rfl)]
  rfl

/-- The whole-array function at an entry: the same arithmetic on the array's entry and the bias row's column. -/
theorem whole_apply (A : Gcn.Arr Ideal Cert.ReferenceIdeal.S50000x64) (b : Gcn.Arr Ideal Cert.ReferenceIdeal.S1x64)
    (i : Cert.ReferenceIdeal.S50000x64.Idx) :
    Gcn.act1 A b i = max (A i + b (rowAt ⟨(i 1).val, (i 1).isLt⟩)) (Ideal.ofBits .f32 0x00000000#32) := by
  unfold Gcn.act1 Gcn.zero64
  rw [ValueIdx.maximumf_apply, ValueIdx.addf_apply]
  rw [broadcastInDim_apply _ Cert.ReferenceIdeal.Gen.bcast_S1x64_S50000x64_0_1 b i (rowAt ⟨(i 1).val, (i 1).isLt⟩) (fun a => by
    match a with
    | ⟨0, _⟩ => rfl
    | ⟨1, _⟩ => rfl)]
  rfl

/-- The printed index maps, decided over the grid: the feature window's block moves with the output window's, the bias
    window stays on its one block, and the output's block at point `t` is block row `t`. -/
theorem index_maps : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the arrays as the region found them: the
    feature block is read where the output block lies, the bias block is the whole row. -/
theorem flushed_eq (c : Dev nD) (t : Fin cfg1.N) :
    (dat1 V c).flushed 2 t = ((cfg1.win 2).blk t).view.read (Elt Ideal) (Gcn.act1 (V c main_v46) (V c main_v47)) := by
  show (cfg1.win 2).cut (grid1.coords t) ((dat1 V c).after 2 t) = _
  rw [after1_2]
  unfold out1_2
  rw [View.canon_unit_zero corner]
  simp only [View.ld_unit_zero (S := S2000x64) corner, View.ld_unit_zero (S := S1x64) corner]
  obtain ⟨e0, e1, e2, e3, e4, e5⟩ := index_maps t
  funext j
  show k1_pay1 (iblk1 V c 0 t) (iblk1 V c 1 t) j = Gcn.act1 (V c main_v46) (V c main_v47) (((cfg1.win 2).blk t).view.emb j)
  refine (body_apply (iblk1 V c 0 t) (iblk1 V c 1 t) j).trans ?_
  refine Eq.trans ?_ (whole_apply (V c main_v46) (V c main_v47) (((cfg1.win 2).blk t).view.emb j)).symm
  have h0 : iblk1 V c 0 t j = V c main_v46 (((cfg1.win 2).blk t).view.emb j) := by
    show V c main_v46 (((cfg1.win 0).blk t).view.emb j) = V c main_v46 (((cfg1.win 2).blk t).view.emb j)
    refine congrArg (V c main_v46) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * (j 1).val = win1_2.index t (1 : Fin 2) * 64 + 1 * (j 1).val; omega
  have h1 : iblk1 V c 1 t (rowAt ⟨(j 1).val, (j 1).isLt⟩)
      = V c main_v47 (rowAt ⟨(((cfg1.win 2).blk t).view.emb j 1).val, (((cfg1.win 2).blk t).view.emb j 1).isLt⟩) := by
    show V c main_v47 (((cfg1.win 1).blk t).view.emb (rowAt ⟨(j 1).val, (j 1).isLt⟩)) = _
    refine congrArg (V c main_v47) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  exact congrArg₂ (fun a b : EReal => max (a + b) (Ideal.ofBits .f32 0x00000000#32)) h0 h1

/-- An entry of the array lies in point `t`'s output block iff each coordinate lies in the block's range on its axis. -/
theorem mem_block (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v48).slice (win1_2.rect t)).set ↔ _
  rw [View.set_slice_whole, Rect.mem_set_unit]
  exact Iff.rfl

/-- Every entry of the output array lies in some point's block: row `r` in the block of point `r / 2000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have ht : (i 0).val / 2000 < cfg1.N := by show (i 0).val / 2000 < 25; omega
  obtain ⟨-, -, -, -, e4, e5⟩ := index_maps ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_block]
  intro a
  match a with
  | ⟨0, _⟩ => show win1_2.index ⟨(i 0).val / 2000, ht⟩ (0 : Fin 2) * 2000 ≤ (i 0).val ∧ (i 0).val < win1_2.index ⟨(i 0).val / 2000, ht⟩ (0 : Fin 2) * 2000 + 2000; omega
  | ⟨1, _⟩ => show win1_2.index ⟨(i 0).val / 2000, ht⟩ (1 : Fin 2) * 64 ≤ (i 1).val ∧ (i 1).val < win1_2.index ⟨(i 0).val / 2000, ht⟩ (1 : Fin 2) * 64 + 64; omega

/-- After the region its output array holds `Gcn.act1` of the two input arrays as the region found them. -/
theorem final (c : Dev nD) : (dat1 V c).arrAt 2 cfg1.N = Gcn.act1 (V c main_v46) (V c main_v47) :=
  (dat1 V c).arrAt_eq_of_cover 2 (Gcn.act1 (V c main_v46) (V c main_v47)) (fun t _ => flushed_eq V c t) (cover)

end Cert.KernelIdeal.Act1

end
-- ==== Proof.Lin2.lean ====
/-
  Region 2 (the second linear map), read as one function of whole arrays.
  Point t of the 25-point grid reads rows 2000 t … 2000 t + 1999 of the hidden features (all 64 columns) and the whole
  64×7 weight matrix, and writes back those rows of their product: entry (r, q) is the sum over k of H (r, k) · W (k, q)
  (the conversion to bf16 is the identity on extended reals, and the accumulator starts at zero). The 25 blocks tile the
  50000 rows, so after the region the output array is the whole product.
-/
import proofs.«133167_j81638738363153_1_alg».proof.Proof.Gen.KernelIdeal.Frame
import proofs.«133167_j81638738363153_1_alg».proof.Proof.Spec
import proofs.«133167_j81638738363153_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Lin2

open Idealize.ShloMosaic Idealize.ShloMosaic.TcCoe Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-! ## The block product at an index -/

/-- In the block product the left operand's row is the output's row. -/
theorem lhs_row (i : S2000x7.Idx) (q : dot_S2000x64_S64x7_S2000x7_1_0_0_1_n_n.contr.Idx) :
    (dot_S2000x64_S64x7_S2000x7_1_0_0_1_n_n.lhsIdx i q 0).val = (i 0).val := by
  unfold DotDims.lhsIdx
  rw [dif_neg (show ¬(0 : Fin S2000x64.rank) ∈ dot_S2000x64_S64x7_S2000x7_1_0_0_1_n_n.lhsBatch by decide), dif_pos (show (0 : Fin S2000x64.rank) ∈ dot_S2000x64_S64x7_S2000x7_1_0_0_1_n_n.lhsNonContracting by decide)]
  rfl

/-- In the block product the left operand's column is the summation index. -/
theorem lhs_col (i : S2000x7.Idx) (q : dot_S2000x64_S64x7_S2000x7_1_0_0_1_n_n.contr.Idx) :
    (dot_S2000x64_S64x7_S2000x7_1_0_0_1_n_n.lhsIdx i q 1).val = (q ⟨0, by decide⟩).val :=
  dot_S2000x64_S64x7_S2000x7_1_0_0_1_n_n.lhsIdx_val_of_single rfl i q

/-- In the block product the right operand's row is the summation index. -/
theorem rhs_row (i : S2000x7.Idx) (q : dot_S2000x64_S64x7_S2000x7_1_0_0_1_n_n.contr.Idx) :
    (dot_S2000x64_S64x7_S2000x7_1_0_0_1_n_n.rhsIdx i q 0).val = (q ⟨0, by decide⟩).val :=
  dot_S2000x64_S64x7_S2000x7_1_0_0_1_n_n.rhsIdx_val_of_single rfl i q

/-- In the block product the right operand's column is the output's column. -/
theorem rhs_col (i : S2000x7.Idx) (q : dot_S2000x64_S64x7_S2000x7_1_0_0_1_n_n.contr.Idx) :
    (dot_S2000x64_S64x7_S2000x7_1_0_0_1_n_n.rhsIdx i q 1).val = (i 1).val := by
  unfold DotDims.rhsIdx
  rw [dif_neg (show ¬(1 : Fin S64x7.rank) ∈ dot_S2000x64_S64x7_S2000x7_1_0_0_1_n_n.rhsBatch by decide), dif_pos (show (1 : Fin S64x7.rank) ∈ dot_S2000x64_S64x7_S2000x7_1_0_0_1_n_n.rhsNonContracting by decide)]
  rfl

/-- What the body stores at row p, column q of its block: the sum over k of the left block at (p, k) times the
    right block at (k, q). The reshape to the same shape and the conversions to bf16 change nothing, and the
    accumulator is zero. -/
theorem blockProduct_apply (x0 : Vec Ideal S2000x64 .f32) (x1 : Vec Ideal S64x7 .f32) (p : Fin 2000) (q : Fin 7) :
    k2_pay1 (F := Ideal) x0 x1 (ValueIdx.ix2 p q) = ∑ k : Fin 64, x0 (ValueIdx.ix2 p k) * x1 (ValueIdx.ix2 k q) := by
  unfold k2_pay1
  rw [shapeCast_self]
  show FloatOps.matmul (F := Ideal) dot_S2000x64_S64x7_S2000x7_1_0_0_1_n_n none (truncf .bf16 x0 bitsLt_bf16_f32) (truncf .bf16 x1 bitsLt_bf16_f32) (constant S2000x7 .f32 0x00000000#32) (ValueIdx.ix2 p q) = _
  rw [Ideal.matmul_constant_zero_apply, ← Equiv.sum_comp (ValueIdx.contrEquiv1 dot_S2000x64_S64x7_S2000x7_1_0_0_1_n_n 64 rfl rfl).symm]
  refine Finset.sum_congr rfl fun k _ => ?_
  have hk := ValueIdx.contrEquiv1_symm_val dot_S2000x64_S64x7_S2000x7_1_0_0_1_n_n 64 rfl rfl k
  have el : dot_S2000x64_S64x7_S2000x7_1_0_0_1_n_n.lhsIdx (ValueIdx.ix2 p q) ((ValueIdx.contrEquiv1 dot_S2000x64_S64x7_S2000x7_1_0_0_1_n_n 64 rfl rfl).symm k) = ValueIdx.ix2 p k := funext fun a => Fin.ext (by
    match a with
    | ⟨0, _⟩ => exact lhs_row _ _
    | ⟨1, _⟩ => exact (lhs_col _ _).trans hk)
  have er : dot_S2000x64_S64x7_S2000x7_1_0_0_1_n_n.rhsIdx (ValueIdx.ix2 p q) ((ValueIdx.contrEquiv1 dot_S2000x64_S64x7_S2000x7_1_0_0_1_n_n 64 rfl rfl).symm k) = ValueIdx.ix2 k q := funext fun a => Fin.ext (by
    match a with
    | ⟨0, _⟩ => exact (rhs_row _ _).trans hk
    | ⟨1, _⟩ => exact rhs_col _ _)
  rw [el, er]
  rfl

/-! ## From the 25 blocks to the array -/

/-- The body reads and writes its staging buffers whole: the offset of each access is zero on both axes. -/
theorem zero_offset : (![0, 0] : Fin 2 → Nat) = fun _ => 0 := funext fun a => by fin_cases a <;> rfl

/-- The block indices over the 25 points: the hidden-feature block and the output block of point t are both block t of
    the rows and block 0 of the columns; the weight matrix is one block, read at every point. -/
theorem block_indices : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- An entry of the whole product: the sum over k of H (row, k) · W (k, column). -/
theorem lin2_apply (X : Gcn.Arr Ideal Cert.ReferenceIdeal.S50000x64) (W : Gcn.Arr Ideal Cert.ReferenceIdeal.S64x7)
    (i : Cert.ReferenceIdeal.S50000x7.Idx) :
    Gcn.lin2 X W i = ∑ k : Fin 64, X (Cert.ReferenceIdeal.ReadP.lidx_main_v51 i k) * W (Cert.ReferenceIdeal.ReadP.ridx_main_v51 i k) := by
  unfold Gcn.lin2
  simp only [Host.dotGeneral]
  rw [Ideal.dotGeneral_apply, ← Equiv.sum_comp (ValueIdx.contrEquiv1 Cert.ReferenceIdeal.dot_S50000x64_S64x7_S50000x7_1_0_0_1_n_n 64 rfl rfl).symm]
  refine Finset.sum_congr rfl fun k _ => ?_
  have hk := ValueIdx.contrEquiv1_symm_val Cert.ReferenceIdeal.dot_S50000x64_S64x7_S50000x7_1_0_0_1_n_n 64 rfl rfl k
  have el : Cert.ReferenceIdeal.dot_S50000x64_S64x7_S50000x7_1_0_0_1_n_n.lhsIdx i ((ValueIdx.contrEquiv1 Cert.ReferenceIdeal.dot_S50000x64_S64x7_S50000x7_1_0_0_1_n_n 64 rfl rfl).symm k) = Cert.ReferenceIdeal.ReadP.lidx_main_v51 i k := funext fun a => Fin.ext (by
    match a with
    | ⟨0, _⟩ => exact Cert.ReferenceIdeal.ReadP.lhs_main_v51_0 _ _
    | ⟨1, _⟩ => exact (Cert.ReferenceIdeal.ReadP.lhs_main_v51_1 _ _).trans hk)
  have er : Cert.ReferenceIdeal.dot_S50000x64_S64x7_S50000x7_1_0_0_1_n_n.rhsIdx i ((ValueIdx.contrEquiv1 Cert.ReferenceIdeal.dot_S50000x64_S64x7_S50000x7_1_0_0_1_n_n 64 rfl rfl).symm k) = Cert.ReferenceIdeal.ReadP.ridx_main_v51 i k := funext fun a => Fin.ext (by
    match a with
    | ⟨0, _⟩ => exact (Cert.ReferenceIdeal.ReadP.rhs_main_v51_0 _ _).trans hk
    | ⟨1, _⟩ => exact Cert.ReferenceIdeal.ReadP.rhs_main_v51_1 _ _)
  rw [el, er]

/-- What point t writes back is block t of the whole product: rows 2000 t … 2000 t + 1999, all 7 columns. -/
theorem flushed_eq (c : Dev nD) (t : Fin cfg2.N) :
    (dat2 V c).flushed 2 t = ((cfg2.win 2).blk t).view.read (Elt Ideal) (Gcn.lin2 (V c main_v48) (V c main_arg4)) := by
  show (cfg2.win 2).cut (grid2.coords t) ((dat2 V c).after 2 t) = _
  rw [after2_2]
  unfold out2_2
  rw [View.canon_unit_zero zero_offset]
  simp only [View.ld_unit_zero (S := S2000x64) zero_offset, View.ld_unit_zero (S := S64x7) zero_offset]
  obtain ⟨e0, e1, e2, e3, e4, e5⟩ := block_indices t
  refine funext fun (j : S2000x7.Idx) => ?_
  obtain ⟨p, q, rfl⟩ : ∃ (p : Fin 2000) (q : Fin 7), j = ValueIdx.ix2 p q := ⟨j 0, j 1, ValueIdx.eq_ix2 j⟩
  show k2_pay1 (F := Ideal) (iblk2 V c 0 t) (iblk2 V c 1 t) (ValueIdx.ix2 p q)
    = Gcn.lin2 (V c main_v48) (V c main_arg4) (((cfg2.win 2).blk t).view.emb (ValueIdx.ix2 p q))
  refine (blockProduct_apply _ _ p q).trans ?_
  rw [lin2_apply]
  refine Finset.sum_congr rfl fun k _ => ?_
  have hX : ((cfg2.win 0).blk t).view.emb (ValueIdx.ix2 p k)
      = Cert.ReferenceIdeal.ReadP.lidx_main_v51 (((cfg2.win 2).blk t).view.emb (ValueIdx.ix2 p q)) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * k.val = k.val; omega
  have hW : ((cfg2.win 1).blk t).view.emb (ValueIdx.ix2 k q)
      = Cert.ReferenceIdeal.ReadP.ridx_main_v51 (((cfg2.win 2).blk t).view.emb (ValueIdx.ix2 p q)) k := by
    funext a; apply Fin.ext
    match a with
    | ⟨0, _⟩ => show win2_1.index t (0 : Fin 2) * 64 + 1 * k.val = k.val; omega
    | ⟨1, _⟩ => show win2_1.index t (1 : Fin 2) * 7 + 1 * q.val = win2_2.index t (1 : Fin 2) * 7 + 1 * q.val; omega
  rw [← hX, ← hW]
  rfl

/-- An index of the output array lies in point t's block exactly when each coordinate lies in the block's range on its
    axis: rows from 2000 · (block row) up to the next 2000, columns from 7 · (block column) up to the next 7. -/
theorem mem_blk (t : Fin cfg2.N) (i : S50000x7.Idx) :
    i ∈ ((cfg2.win 2).blk t).view.set ↔ ∀ a : Fin 2, win2_2.index t a * S2000x7.size a ≤ (i a).val ∧ (i a).val < win2_2.index t a * S2000x7.size a + S2000x7.size a := by
  show i ∈ ((View.whole main_v49).slice (win2_2.rect t)).set ↔ _
  rw [View.set_slice_whole, Rect.mem_set_unit]
  exact Iff.rfl

/-- The 25 blocks tile the 50000 rows: row r lies in the block of point r / 2000, and every point writes its block back. -/
theorem cover (i : S50000x7.Idx) :
    ∃ t : Fin cfg2.N, (cfg2.win 2).flush t = true ∧ i ∈ ((cfg2.win 2).blk t).view.set := by
  have hi0 : (i 0).val < 50000 := (i 0).isLt
  have hi1 : (i 1).val < 7 := (i 1).isLt
  have hN : (i 0).val / 2000 < grid2.N := by rw [N_2]; omega
  obtain ⟨t, ht⟩ : ∃ t : Fin cfg2.N, t.val = (i 0).val / 2000 := ⟨⟨(i 0).val / 2000, hN⟩, rfl⟩
  obtain ⟨e0, e1, e2, e3, e4, e5⟩ := block_indices t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 7 ≤ (i 1).val ∧ (i 1).val < win2_2.index t (1 : Fin 2) * 7 + 7; omega

/-- After the region its output array holds the matrix product of the two input arrays as the region found them. -/
theorem final (c : Dev nD) : (dat2 V c).arrAt 2 cfg2.N = Gcn.lin2 (V c main_v48) (V c main_arg4) :=
  (dat2 V c).arrAt_eq_of_cover 2 (Gcn.lin2 (V c main_v48) (V c main_arg4)) (fun t _ => flushed_eq V c t) cover

end Cert.KernelIdeal.Lin2

end
-- ==== Proof.Act2.lean ====
/-
  Region 3 (the output bias), read as one function of whole arrays.
  Point t of the 25-point grid reads rows 2000 t … 2000 t + 1999 of the aggregated class scores (all 7 columns) and the
  whole 1×7 bias row, and writes back those rows with the bias row added to each. The output's 25 blocks tile the 50000
  rows, so after the region the output array holds `Gcn.act2` of the two input arrays as the region found them.
-/
import proofs.«133167_j81638738363153_1_alg».proof.Proof.Gen.KernelIdeal.Frame
import proofs.«133167_j81638738363153_1_alg».proof.Proof.Spec
import Idealize.ShloMosaic.Lib.Pipeline.Value
import Idealize.ShloMosaic.Lib.ValueIdx

set_option maxRecDepth 16384

noncomputable section

namespace Cert.KernelIdeal.Act2

open Idealize.ShloMosaic Idealize.ShloMosaic.TcCoe Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-- Every access of the body starts at the corner of its buffer. -/
theorem corner : (![0, 0] : Fin 2 → Nat) = fun _ => 0 := funext fun a => by fin_cases a <;> rfl

/-- The index of class `q` in the one-row bias array. -/
abbrev biasAt (q : Fin 7) : S1x7.Idx := ValueIdx.ix2 (0 : Fin 1) q

/-- The body's arithmetic at an entry of the block: the score plus the bias of its class. -/
theorem body_apply (x0 : Vec Ideal S2000x7 .f32) (x1 : Vec Ideal S1x7 .f32) (j : S2000x7.Idx) :
    k3_pay1 x0 x1 j = x0 j + x1 (biasAt ⟨(j 1).val, (j 1).isLt⟩) := by
  unfold k3_pay1
  simp only [shapeCast_self]
  rw [ValueIdx.addf_apply]
  rw [broadcastTo_apply x1 broadcasts_S1x7_S2000x7 j (biasAt ⟨(j 1).val, (j 1).isLt⟩) (fun a => by
    match a with
    | ⟨0, _⟩ => rfl
    | ⟨1, _⟩ => rfl)]

/-- The whole-array function at an entry: the array's entry plus the bias row's entry of the same class. -/
theorem whole_apply (A : Gcn.Arr Ideal Cert.ReferenceIdeal.S50000x7) (b : Gcn.Arr Ideal Cert.ReferenceIdeal.S1x7)
    (i : Cert.ReferenceIdeal.S50000x7.Idx) :
    Gcn.act2 A b i = A i + b (biasAt ⟨(i 1).val, (i 1).isLt⟩) := by
  unfold Gcn.act2
  rw [ValueIdx.addf_apply]
  rw [broadcastInDim_apply _ Cert.ReferenceIdeal.Gen.bcast_S1x7_S50000x7_0_1 b i (biasAt ⟨(i 1).val, (i 1).isLt⟩) (fun a => by
    match a with
    | ⟨0, _⟩ => rfl
    | ⟨1, _⟩ => rfl)]

/-- The printed index maps, decided over the grid: the score window's block moves with the output window's, the bias
    window stays on its one block, and the output's block at point `t` is block row `t`. -/
theorem index_maps : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array sum of the arrays as the region found them: the score
    block is read where the output block lies, the bias block is the whole row. -/
theorem flushed_eq (c : Dev nD) (t : Fin cfg3.N) :
    (dat3 V c).flushed 2 t = ((cfg3.win 2).blk t).view.read (Elt Ideal) (Gcn.act2 (V c main_v62) (V c main_v63)) := by
  show (cfg3.win 2).cut (grid3.coords t) ((dat3 V c).after 2 t) = _
  rw [after3_2]
  unfold out3_2
  rw [View.canon_unit_zero corner]
  simp only [View.ld_unit_zero (S := S2000x7) corner, View.ld_unit_zero (S := S1x7) corner]
  obtain ⟨e0, e1, e2, e3, e4, e5⟩ := index_maps t
  funext j
  show k3_pay1 (iblk3 V c 0 t) (iblk3 V c 1 t) j = Gcn.act2 (V c main_v62) (V c main_v63) (((cfg3.win 2).blk t).view.emb j)
  refine (body_apply (iblk3 V c 0 t) (iblk3 V c 1 t) j).trans ?_
  refine Eq.trans ?_ (whole_apply (V c main_v62) (V c main_v63) (((cfg3.win 2).blk t).view.emb j)).symm
  have scores : iblk3 V c 0 t j = V c main_v62 (((cfg3.win 2).blk t).view.emb j) := by
    show V c main_v62 (((cfg3.win 0).blk t).view.emb j) = V c main_v62 (((cfg3.win 2).blk t).view.emb j)
    refine congrArg (V c main_v62) (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 7 + 1 * (j 1).val = win3_2.index t (1 : Fin 2) * 7 + 1 * (j 1).val; omega
  have bias : iblk3 V c 1 t (biasAt ⟨(j 1).val, (j 1).isLt⟩)
      = V c main_v63 (biasAt ⟨(((cfg3.win 2).blk t).view.emb j 1).val, (((cfg3.win 2).blk t).view.emb j 1).isLt⟩) := by
    show V c main_v63 (((cfg3.win 1).blk t).view.emb (biasAt ⟨(j 1).val, (j 1).isLt⟩)) = _
    refine congrArg (V c main_v63) (funext fun a => Fin.ext ?_)
    match a with
    | ⟨0, _⟩ => show win3_1.index t (0 : Fin 2) * 1 + 1 * 0 = 0; omega
    | ⟨1, _⟩ => show win3_1.index t (1 : Fin 2) * 7 + 1 * (j 1).val = win3_2.index t (1 : Fin 2) * 7 + 1 * (j 1).val; omega
  exact congrArg₂ (fun a b : EReal => a + b) scores bias

/-- An entry of the array lies in point `t`'s output block iff each coordinate lies in the block's range on its axis. -/
theorem mem_block (t : Fin cfg3.N) (i : S50000x7.Idx) :
    i ∈ ((cfg3.win 2).blk t).view.set ↔ ∀ a : Fin 2, win3_2.index t a * S2000x7.size a ≤ (i a).val ∧ (i a).val < win3_2.index t a * S2000x7.size a + S2000x7.size a := by
  show i ∈ ((View.whole main_v64).slice (win3_2.rect t)).set ↔ _
  rw [View.set_slice_whole, Rect.mem_set_unit]
  exact Iff.rfl

/-- Every entry of the output array lies in some point's block: row `r` in the block of point `r / 2000`. -/
theorem cover (i : S50000x7.Idx) : ∃ t : Fin cfg3.N, (cfg3.win 2).flush t = true ∧ i ∈ ((cfg3.win 2).blk t).view.set := by
  have hi0 : (i 0).val < 50000 := (i 0).isLt
  have hi1 : (i 1).val < 7 := (i 1).isLt
  have ht : (i 0).val / 2000 < cfg3.N := by show (i 0).val / 2000 < 25; omega
  obtain ⟨-, -, -, -, e4, e5⟩ := index_maps ⟨(i 0).val / 2000, ht⟩
  have e4' : win3_2.index ⟨(i 0).val / 2000, ht⟩ (0 : Fin 2) = (i 0).val / 2000 := e4
  refine ⟨⟨(i 0).val / 2000, ht⟩, flush3_2 _, ?_⟩
  rw [mem_block]
  intro a
  match a with
  | ⟨0, _⟩ => show win3_2.index ⟨(i 0).val / 2000, ht⟩ (0 : Fin 2) * 2000 ≤ (i 0).val ∧ (i 0).val < win3_2.index ⟨(i 0).val / 2000, ht⟩ (0 : Fin 2) * 2000 + 2000; omega
  | ⟨1, _⟩ => show win3_2.index ⟨(i 0).val / 2000, ht⟩ (1 : Fin 2) * 7 ≤ (i 1).val ∧ (i 1).val < win3_2.index ⟨(i 0).val / 2000, ht⟩ (1 : Fin 2) * 7 + 7; omega

/-- After the region its output array holds `Gcn.act2` of the two input arrays as the region found them. -/
theorem final (c : Dev nD) : (dat3 V c).arrAt 2 cfg3.N = Gcn.act2 (V c main_v62) (V c main_v63) :=
  (dat3 V c).arrAt_eq_of_cover 2 (Gcn.act2 (V c main_v62) (V c main_v63)) (fun t _ => flushed_eq V c t) (cover)

end Cert.KernelIdeal.Act2

end
-- ==== Proof.Fold.lean ====
/-
  The kernel's result buffer, read back through @main's segments.

  @main is: the host operations that build the edge lists (sources and destinations with the self loops appended), the
  degrees, dinv and the edge weights; region 0 (x · W1); the first shared chain (gather, scale, scatter-add) and the
  bias vector laid out as a row; region 1 (bias and relu); region 2 (h · W2); the second shared chain and the second bias
  row; region 3 (bias). The generated frame names the buffer contents at each boundary (`W3` … `W9`). Here each
  buffer a later segment reads is identified at its boundary:

  * the edge lists and the edge weights are the reference's own stages of the edge-index input, and no later segment
    writes them;
  * the input arrays are never written;
  * a region's output array holds the whole-array function of its two input arrays (Lin1, Act1, Lin2, Act2);
  * a shared chain's output is `Gcn.spread64` / `Gcn.spread7` of the region output it gathers from.

  Composed: the result buffer ends holding `Gcn.network` of the six inputs, which is what the reference computes
  (`Gcn.reference_eq`). No gather, scatter-add or rsqrt is ever opened.
-/
import proofs.«133167_j81638738363153_1_alg».proof.Proof.Gen.KernelIdeal.Frame
import proofs.«133167_j81638738363153_1_alg».proof.Proof.Glue
import proofs.«133167_j81638738363153_1_alg».proof.Proof.Lin1
import proofs.«133167_j81638738363153_1_alg».proof.Proof.Act1
import proofs.«133167_j81638738363153_1_alg».proof.Proof.Lin2
import proofs.«133167_j81638738363153_1_alg».proof.Proof.Act2
import Idealize.ShloMosaic.Lib.StableHlo.Run
import Idealize.ShloMosaic.Lib.Pipeline.Value

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen
open Cert.ReferenceIdeal.ReadP (val_main_v3 val_main_v6 val_main_v32 val_main_v47 val_main_v65 val_main_v67)

/-! ## The host side, for any float family -/

section Host

variable {F : FTy → Type} [FloatOps F]
variable (m : (ℓ : Loc nD τ sig) → Buf (Elt F) ℓ) (ρ : Dev nD → PrngReg)

/-- The source-index list (edge sources, then every node once) when region 0 is entered. -/
theorem src_at3 (c : Dev nD) :
    W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results
  rfl

/-- The destination-index list when region 0 is entered. -/
theorem dst_at3 (c : Dev nD) :
    W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results
  rfl

set_option maxHeartbeats 2000000 in
/-- The edge weights dinv[src] · dinv[dst] when region 0 is entered. -/
theorem weights_at3 (c : Dev nD) :
    W3 m ρ c (Proc.devRef .tc main_v32) = val_main_v32 (F := F) (m ((c : Thread nD τ).loc main_arg1)) := by
  show StableHlo.after hostOps0_2 (StableHlo.after hostOps0_1 (StableHlo.after hostOps0 (W0 m ρ c))) (Proc.devRef .tc main_v32) = _
  after_results_simp
  rfl

/-- No host operation before region 0 writes an input array. -/
theorem x_at3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem w1_at3 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem b1_at3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
theorem w2_at3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem b2_at3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

/-! ### What region 0 and the first chain leave alone -/

theorem src_at4 (c : Dev nD) :
    W4 m ρ c (Proc.devRef .tc main_v3) = val_main_v3 (F := F) (m ((c : Thread nD τ).loc main_arg1)) :=
  (W4_of_ne m ρ c main_v3 (by decide)).trans (src_at3 m ρ c)
theorem dst_at4 (c : Dev nD) :
    W4 m ρ c (Proc.devRef .tc main_v6) = val_main_v6 (F := F) (m ((c : Thread nD τ).loc main_arg1)) :=
  (W4_of_ne m ρ c main_v6 (by decide)).trans (dst_at3 m ρ c)
theorem weights_at4 (c : Dev nD) :
    W4 m ρ c (Proc.devRef .tc main_v32) = val_main_v32 (F := F) (m ((c : Thread nD τ).loc main_arg1)) :=
  (W4_of_ne m ρ c main_v32 (by decide)).trans (weights_at3 m ρ c)
theorem b1_at4 (c : Dev nD) : W4 m ρ c (Proc.devRef .tc main_arg3) = m ((c : Thread nD τ).loc main_arg3) :=
  (W4_of_ne m ρ c main_arg3 (by decide)).trans (b1_at3 m ρ c)

/-- The first chain writes none of the edge lists, the weights, or the later inputs. -/
theorem src_at5 (c : Dev nD) : W5 m ρ c (Proc.devRef .tc main_v3) = W4 m ρ c (Proc.devRef .tc main_v3) := by
  show StableHlo.after hostOps1 (W4 m ρ c) (Proc.devRef .tc main_v3) = _
  after_results
theorem dst_at5 (c : Dev nD) : W5 m ρ c (Proc.devRef .tc main_v6) = W4 m ρ c (Proc.devRef .tc main_v6) := by
  show StableHlo.after hostOps1 (W4 m ρ c) (Proc.devRef .tc main_v6) = _
  after_results
theorem weights_at5 (c : Dev nD) : W5 m ρ c (Proc.devRef .tc main_v32) = W4 m ρ c (Proc.devRef .tc main_v32) := by
  show StableHlo.after hostOps1 (W4 m ρ c) (Proc.devRef .tc main_v32) = _
  after_results
theorem w2_at5 (c : Dev nD) : W5 m ρ c (Proc.devRef .tc main_arg4) = W4 m ρ c (Proc.devRef .tc main_arg4) := by
  show StableHlo.after hostOps1 (W4 m ρ c) (Proc.devRef .tc main_arg4) = _
  after_results
theorem b2_at5 (c : Dev nD) : W5 m ρ c (Proc.devRef .tc main_arg5) = W4 m ρ c (Proc.devRef .tc main_arg5) := by
  show StableHlo.after hostOps1 (W4 m ρ c) (Proc.devRef .tc main_arg5) = _
  after_results

/-- The second weight matrix when region 2 is entered. -/
theorem w2_at6 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := w2_at5 m ρ c
    _ = W3 m ρ c (Proc.devRef .tc main_arg4) := W4_of_ne m ρ c main_arg4 (by decide)
    _ = m ((c : Thread nD τ).loc main_arg4) := w2_at3 m ρ c

/-- The edge lists, the weights and the second bias vector when the second chain starts (after region 2). -/
theorem src_at7 (c : Dev nD) :
    W7 m ρ c (Proc.devRef .tc main_v3) = val_main_v3 (F := F) (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := src_at5 m ρ c
    _ = _ := src_at4 m ρ c
theorem dst_at7 (c : Dev nD) :
    W7 m ρ c (Proc.devRef .tc main_v6) = val_main_v6 (F := F) (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := dst_at5 m ρ c
    _ = _ := dst_at4 m ρ c
theorem weights_at7 (c : Dev nD) :
    W7 m ρ c (Proc.devRef .tc main_v32) = val_main_v32 (F := F) (m ((c : Thread nD τ).loc main_arg1)) :=
  calc W7 m ρ c (Proc.devRef .tc main_v32)
    _ = W6 m ρ c (Proc.devRef .tc main_v32) := W7_of_ne m ρ c main_v32 (by decide)
    _ = W5 m ρ c (Proc.devRef .tc main_v32) := W6_of_ne m ρ c main_v32 (by decide)
    _ = W4 m ρ c (Proc.devRef .tc main_v32) := weights_at5 m ρ c
    _ = _ := weights_at4 m ρ c
theorem b2_at7 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := b2_at5 m ρ c
    _ = W3 m ρ c (Proc.devRef .tc main_arg5) := W4_of_ne m ρ c main_arg5 (by decide)
    _ = m ((c : Thread nD τ).loc main_arg5) := b2_at3 m ρ c

/-! ### A bias vector laid out as a row -/

/-- Reshaping a 64-vector to a 1×64 row puts entry `q` at (0, q): the same row the reference makes by broadcasting. -/
theorem row64 (b : (⟨S64, .f32⟩ : BufTy).Contents (Elt F)) :
    shapeCast S1x64 b shapeCasts_S64_S1x64 = val_main_v47 (F := F) b := by
  funext i
  rw [Cert.ReferenceIdeal.ReadP.val_main_v47_apply]
  refine shapeCast_apply b shapeCasts_S64_S1x64 i (Cert.ReferenceIdeal.ReadP.idx_main_v47 i) ?_
  rw [Shape.rowMajor_val_one, Shape.rowMajor_val_two]
  have h0 : (i 0).val < 1 := (i 0).isLt
  show (i 1).val = (i 0).val * 64 + (i 1).val
  omega

/-- Reshaping a 7-vector to a 1×7 row puts entry `q` at (0, q). -/
theorem row7 (b : (⟨S7, .f32⟩ : BufTy).Contents (Elt F)) :
    shapeCast S1x7 b shapeCasts_S7_S1x7 = val_main_v65 (F := F) b := by
  funext i
  rw [Cert.ReferenceIdeal.ReadP.val_main_v65_apply]
  refine shapeCast_apply b shapeCasts_S7_S1x7 i (Cert.ReferenceIdeal.ReadP.idx_main_v65 i) ?_
  rw [Shape.rowMajor_val_one, Shape.rowMajor_val_two]
  have h0 : (i 0).val < 1 := (i 0).isLt
  show (i 1).val = (i 0).val * 7 + (i 1).val
  omega

/-! ### The two shared chains -/

set_option maxHeartbeats 2000000 in
/-- After the first chain the aggregated-features buffer holds `Gcn.spread64` of region 0's output. -/
theorem agg1_at5 (c : Dev nD) :
    W5 m ρ c (Proc.devRef .tc main_v46) = Gcn.spread64 (m ((c : Thread nD τ).loc main_arg1)) (W4 m ρ c (Proc.devRef .tc main_v33)) := by
  show StableHlo.after hostOps1 (W4 m ρ c) (Proc.devRef .tc main_v46) = _
  after_results
  rw [src_at4, dst_at4, weights_at4]
  rfl

/-- After the first chain the first bias vector lies in its row buffer. -/
theorem b1row_at5 (c : Dev nD) :
    W5 m ρ c (Proc.devRef .tc main_v47) = val_main_v47 (F := F) (m ((c : Thread nD τ).loc main_arg3)) := by
  show StableHlo.after hostOps1 (W4 m ρ c) (Proc.devRef .tc main_v47) = _
  after_results
  rw [b1_at4]
  exact row64 _

set_option maxHeartbeats 2000000 in
/-- After the second chain the aggregated-scores buffer holds `Gcn.spread7` of region 2's output. -/
theorem agg2_at8 (c : Dev nD) :
    W8 m ρ c (Proc.devRef .tc main_v62) = Gcn.spread7 (m ((c : Thread nD τ).loc main_arg1)) (W7 m ρ c (Proc.devRef .tc main_v49)) := by
  show StableHlo.after hostOps3 (W7 m ρ c) (Proc.devRef .tc main_v62) = _
  after_results
  rw [src_at7, dst_at7, weights_at7]
  rfl

/-- After the second chain the second bias vector lies in its row buffer. -/
theorem b2row_at8 (c : Dev nD) :
    W8 m ρ c (Proc.devRef .tc main_v63) = val_main_v65 (F := F) (m ((c : Thread nD τ).loc main_arg5)) := by
  show StableHlo.after hostOps3 (W7 m ρ c) (Proc.devRef .tc main_v63) = _
  after_results
  rw [b2_at7]
  exact row7 _

end Host

/-! ## The regions, on extended reals -/

section Regions

variable (m : (ℓ : Loc nD τ sig) → Buf (Elt Ideal) ℓ) (ρ : Dev nD → PrngReg)

/-- After region 0: x · W1. -/
theorem lin1_at4 (c : Dev nD) :
    W4 m ρ c (Proc.devRef .tc main_v33) = Gcn.lin1 (m ((c : Thread nD τ).loc main_arg0)) (m ((c : Thread nD τ).loc main_arg2)) := by
  refine (W4_arr m ρ c 2).trans ?_
  rw [Lin1.final (V3 m ρ) c]
  show Gcn.lin1 (W3 m ρ c (Proc.devRef .tc main_arg0)) (W3 m ρ c (Proc.devRef .tc main_arg2)) = _
  rw [x_at3, w1_at3]

/-- After region 1: bias and relu of the first aggregation. -/
theorem act1_at6 (c : Dev nD) :
    W6 m ρ c (Proc.devRef .tc main_v48) = Gcn.act1 (W5 m ρ c (Proc.devRef .tc main_v46)) (W5 m ρ c (Proc.devRef .tc main_v47)) := by
  refine (W6_arr m ρ c 2).trans ?_
  rw [Act1.final (V5 m ρ) c]

/-- After region 2: h · W2. -/
theorem lin2_at7 (c : Dev nD) :
    W7 m ρ c (Proc.devRef .tc main_v49) = Gcn.lin2 (W6 m ρ c (Proc.devRef .tc main_v48)) (m ((c : Thread nD τ).loc main_arg4)) := by
  refine (W7_arr m ρ c 2).trans ?_
  rw [Lin2.final (V6 m ρ) c]
  show Gcn.lin2 (W6 m ρ c (Proc.devRef .tc main_v48)) (W6 m ρ c (Proc.devRef .tc main_arg4)) = _
  rw [w2_at6]

/-- After region 3: the second aggregation plus its bias. -/
theorem act2_at9 (c : Dev nD) :
    W9 m ρ c (Proc.devRef .tc main_v64) = Gcn.act2 (W8 m ρ c (Proc.devRef .tc main_v62)) (W8 m ρ c (Proc.devRef .tc main_v63)) := by
  refine (W9_arr m ρ c 2).trans ?_
  rw [Act2.final (V8 m ρ) c]

/-- THE RESULT: at @main's return the result buffer holds the reference's function of the six inputs. -/
theorem result (c : Dev nD) :
    W9 m ρ c (Proc.devRef .tc main_v64)
      = val_main_v67 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [Gcn.reference_eq, act2_at9, agg2_at8, b2row_at8, lin2_at7, act1_at6, agg1_at5, b1row_at5, lin1_at4]
  rfl

end Regions

end Cert.KernelIdeal.Fold

end
-- ==== Proof.lean ====
/-
  A two-layer graph convolution over 50000 nodes and 1.6 million edges (every node also gets a self loop):

      out = Â · relu (Â · (x · W1) + b1) · W2 + b2,      Â the adjacency normalised by dinv[src] · dinv[dst],

  Â applied as gather at the sources, scale by the edge weight, scatter-add into the destinations.

  The kernel computes the four dense pieces — x · W1, bias and relu, h · W2, bias — in four regions tiled over the rows in
  25 blocks of 2000, and leaves the irregular part (edge lists, degrees, weights, gather, scale, scatter-add) to the same
  host operations the reference uses. On extended reals the conversion of a matmul's operands to bf16 is the identity
  and a product accumulated from zero is the plain dot product, so each region computes, block by block, exactly the
  whole-array function the reference applies (Lin1, Act1, Lin2, Act2); the blocks tile the arrays; and between the
  regions both programs apply one and the same function of the incoming features (Glue). Reading the kernel's result
  buffer back through @main (Fold) gives the reference's function of the six inputs. No algebraic law beyond
  0 + s = s is used, so the finiteness of the inputs is never needed.

  The frames of the two kernel programs are the generated ones; the reference's frame is its run with the result
  dropped; the idealization rewrote nothing, so `preserves` is trivial.
-/
import proofs.«133167_j81638738363153_1_alg».proof.Defs
import proofs.«133167_j81638738363153_1_alg».proof.Proof.Gen.Kernel
import proofs.«133167_j81638738363153_1_alg».proof.Proof.Gen.Kernel.Skeleton
import proofs.«133167_j81638738363153_1_alg».proof.Proof.Gen.Kernel.Launch
import proofs.«133167_j81638738363153_1_alg».proof.Proof.Gen.Kernel.Points
import proofs.«133167_j81638738363153_1_alg».proof.Proof.Gen.Kernel.Frame
import proofs.«133167_j81638738363153_1_alg».proof.Proof.Gen.KernelIdeal
import proofs.«133167_j81638738363153_1_alg».proof.Proof.Gen.KernelIdeal.Skeleton
import proofs.«133167_j81638738363153_1_alg».proof.Proof.Gen.KernelIdeal.Launch
import proofs.«133167_j81638738363153_1_alg».proof.Proof.Gen.KernelIdeal.Points
import proofs.«133167_j81638738363153_1_alg».proof.Proof.Gen.KernelIdeal.Frame
import proofs.«133167_j81638738363153_1_alg».proof.Proof.Gen.ReferenceIdeal
import proofs.«133167_j81638738363153_1_alg».proof.Proof.Gen.Pre_finite_inputs
import proofs.«133167_j81638738363153_1_alg».proof.Proof.RefRun
import proofs.«133167_j81638738363153_1_alg».proof.Proof.RefRead
import proofs.«133167_j81638738363153_1_alg».proof.Proof.KernelRun
import proofs.«133167_j81638738363153_1_alg».proof.Proof.Fold
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame. -/
theorem frame_kernel : Cert.frame_Kernel := fun m ρ _ => Cert.Kernel.Gen.frame m ρ

/-- So does its reading on extended reals. -/
theorem frame_kernelIdeal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six inputs both programs end with the same result array: the reference's function
    of the inputs. The kernel's run ends with its result buffer at the last boundary's contents, which `Fold.result`
    identifies; the reference's run ends at its composed term, which is that function by unfolding. -/
theorem algebraic : Cert.algebraic_KernelIdeal_ReferenceIdeal := by
  intro m ρ m' ρ' _ hagree
  refine ⟨fun c => Cert.ReferenceIdeal.ReadP.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.GenP.run_main m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v67_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
